-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x64x96x96 : Shape := ⟨5, ![2, 4, 64, 96, 96]⟩
abbrev S2x64x96x96 : Shape := ⟨4, ![2, 64, 96, 96]⟩
abbrev S_ : Shape := ⟨0, ![]⟩

class Facts : Prop where
  bcast_S_S2x4x64x96x96 : S_.BroadcastsInDim S2x4x64x96x96 (![] : Fin 0 → Fin S2x4x64x96x96.rank)
  reducesTo_S2x4x64x96x96_S_d0_1_2_3_4 : S2x4x64x96x96.ReducesTo [0, 1, 2, 3, 4] S_
  h_S_ : 0 < S_.numel
  bcast_S_S2x64x96x96 : S_.BroadcastsInDim S2x64x96x96 (![] : Fin 0 → Fin S2x64x96x96.rank)
  reducesTo_S2x64x96x96_S_d0_1_2_3 : S2x64x96x96.ReducesTo [0, 1, 2, 3] S_

variable [Facts]

def fn {F : FTy → Type} [FloatOps F] (main_arg0 : FVec F S2x4x64x96x96 .f32) (main_arg1 : IVec S2x64x96x96 32) : IVec S_ 1 :=
  let main_v0 : FVec F S2x4x64x96x96 .f32 := Host.absf main_arg0
  let main_cst : FVec F S_ .f32 := constant S_ .f32 0x7F800000#32
  let main_v1 : FVec F S2x4x64x96x96 .f32 := broadcastInDim S2x4x64x96x96 ![] bcast_S_S2x4x64x96x96 main_cst
  let main_v2 : IVec S2x4x64x96x96 1 := cmpf .olt main_v0 main_v1
  let main_c : IVec S_ 1 := constantI S_ 1 1#1
  let main_v3 : IVec S_ 1 := (fun x v => Host.reduce IntOp.andi x v reducesTo_S2x4x64x96x96_S_d0_1_2_3_4 h_S_) main_v2 main_c
  let main_c_0 : IVec S_ 32 := constantI S_ 32 0#32
  let main_v4 : IVec S2x64x96x96 32 := broadcastInDim S2x64x96x96 ![] bcast_S_S2x64x96x96 main_c_0
  let main_v5 : IVec S2x64x96x96 1 := cmpi .sge main_arg1 main_v4
  let main_c_1 : IVec S_ 32 := constantI S_ 32 4#32
  let main_v6 : IVec S2x64x96x96 32 := broadcastInDim S2x64x96x96 ![] bcast_S_S2x64x96x96 main_c_1
  let main_v7 : IVec S2x64x96x96 1 := cmpi .slt main_arg1 main_v6
  let main_v8 : IVec S2x64x96x96 1 := andi main_v5 main_v7
  let main_c_2 : IVec S_ 1 := constantI S_ 1 1#1
  let main_v9 : IVec S_ 1 := (fun x v => Host.reduce IntOp.andi x v reducesTo_S2x64x96x96_S_d0_1_2_3 h_S_) main_v8 main_c_2
  let main_v10 : IVec S_ 1 := andi main_v3 main_v9
  main_v10
-- ==== Kernel.lean ====
abbrev S2x4x64x96x96 : Shape := ⟨5, ![2, 4, 64, 96, 96]⟩
abbrev S2x64x96x96 : Shape := ⟨4, ![2, 64, 96, 96]⟩
abbrev S2x4x64x9216 : Shape := ⟨4, ![2, 4, 64, 9216]⟩
abbrev S2x64x9216 : Shape := ⟨3, ![2, 64, 9216]⟩
abbrev S16x128 : Shape := ⟨2, ![16, 128]⟩
abbrev S2x4x8x9216 : Shape := ⟨4, ![2, 4, 8, 9216]⟩
abbrev S2x8x9216 : Shape := ⟨3, ![2, 8, 9216]⟩
abbrev S8x128 : Shape := ⟨2, ![8, 128]⟩
abbrev S2x1x8x9216 : Shape := ⟨4, ![2, 1, 8, 9216]⟩
abbrev S2x4x8 : Shape := ⟨3, ![2, 4, 8]⟩
abbrev S2x4x8x1 : Shape := ⟨4, ![2, 4, 8, 1]⟩
abbrev S2x4x1 : Shape := ⟨3, ![2, 4, 1]⟩
abbrev S2x4x1x1 : Shape := ⟨4, ![2, 4, 1, 1]⟩
abbrev S2x1x1 : Shape := ⟨3, ![2, 1, 1]⟩
abbrev S2x1x1x1 : Shape := ⟨4, ![2, 1, 1, 1]⟩
abbrev S1x1x1 : Shape := ⟨3, ![1, 1, 1]⟩
abbrev S1x1x1x1 : Shape := ⟨4, ![1, 1, 1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S2x4x64x96x96, .f32⟩
  | .hbm, ⟨1, _⟩ => ⟨S2x64x96x96, .i32⟩
  | .hbm, ⟨2, _⟩ => ⟨S2x4x64x9216, .f32⟩
  | .hbm, ⟨3, _⟩ => ⟨S2x64x9216, .i32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2x4x8x9216, .f32⟩
  | .local _ .vmem, ⟨1, _⟩ => ⟨S2x4x8x9216, .f32⟩
  | .local _ .vmem, ⟨2, _⟩ => ⟨S2x8x9216, .i32⟩
  | .local _ .vmem, ⟨3, _⟩ => ⟨S2x8x9216, .i32⟩
  | .local _ .vmem, ⟨4, _⟩ => ⟨S8x128, .f32⟩
  | .local _ .vmem, ⟨5, _⟩ => ⟨S8x128, .f32⟩
  | _, _ => ⟨S2x4x64x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x4x8x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x9216 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x4x64x96x96_S2x4x64x9216 : S2x4x64x96x96.ShapeCasts S2x4x64x9216
  shapeCasts_S2x64x96x96_S2x64x9216 : S2x64x96x96.ShapeCasts S2x64x9216
  inb_S8x128_S8x128_0_0 : ∀ a, (![0, 0] : Fin 2 → Nat) a + S8x128.size a ≤ S8x128.size a
  h_S8x128 : 0 < S8x128.numel
  inb_S2x8x9216_S2x8x9216_0_0_0 : ∀ a, (![0, 0, 0] : Fin 3 → Nat) a + S2x8x9216.size a ≤ S2x8x9216.size a
  h_S2x8x9216 : 0 < S2x8x9216.numel
  shapeCasts_S2x8x9216_S2x8x9216 : S2x8x9216.ShapeCasts S2x8x9216
  shapeCasts_S2x8x9216_S2x1x8x9216 : S2x8x9216.ShapeCasts S2x1x8x9216
  inb_S2x4x8x9216_S2x4x8x9216_0_0_0_0 : ∀ a, (![0, 0, 0, 0] : Fin 4 → Nat) a + S2x4x8x9216.size a ≤ S2x4x8x9216.size a
  h_S2x4x8x9216 : 0 < S2x4x8x9216.numel
  shapeCasts_S2x4x8x9216_S2x4x8x9216 : S2x4x8x9216.ShapeCasts S2x4x8x9216
  broadcasts_S2x1x8x9216_S2x4x8x9216 : S2x1x8x9216.Broadcasts S2x4x8x9216
  reduces_S2x4x8x9216_S2x4x8 : S2x4x8x9216.Reduces [3] S2x4x8
  shapeCasts_S2x4x8_S2x4x8x1 : S2x4x8.ShapeCasts S2x4x8x1
  reduces_S2x4x8x1_S2x4x1 : S2x4x8x1.Reduces [2] S2x4x1
  shapeCasts_S2x4x1_S2x4x1x1 : S2x4x1.ShapeCasts S2x4x1x1
  reduces_S2x4x1x1_S2x1x1 : S2x4x1x1.Reduces [1] S2x1x1
  shapeCasts_S2x1x1_S2x1x1x1 : S2x1x1.ShapeCasts S2x1x1x1
  reduces_S2x1x1x1_S1x1x1 : S2x1x1x1.Reduces [0] S1x1x1
  shapeCasts_S1x1x1_S1x1x1x1 : S1x1x1.ShapeCasts S1x1x1x1
  inpos_S1x1x1x1_p0_0_0_0 : ∀ a, (![0, 0, 0, 0] : Fin 4 → Nat) a < S1x1x1x1.size a
  iota_S8x128_d0_w32 : S8x128.Iotas .tc 32 [0]
  iota_S8x128_d1_w32 : S8x128.Iotas .tc 32 [1]
  natLt_1_32 : 1 < 32
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4x8x9216.size a ≤ S2x4x64x9216.size a
  hwx0_0 : ∀ i : grid0.Coords, EltTy.bits .f32 = 32 ∨ (Rect.block (s := S2x4x64x9216) S2x4x8x9216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8x9216.size a ≤ S2x64x9216.size a
  hwx0_1 : ∀ i : grid0.Coords, EltTy.bits .i32 = 32 ∨ (Rect.block (s := S2x64x9216) S2x8x9216.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S2x4x8x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x8x9216.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4x64x96x96 : Shape := ⟨5, ![2, 4, 64, 96, 96]⟩
abbrev S2x64x96x96 : Shape := ⟨4, ![2, 64, 96, 96]⟩
abbrev S_ : Shape := ⟨0, ![]⟩
abbrev S2x64x96x96x1 : Shape := ⟨5, ![2, 64, 96, 96, 1]⟩
abbrev S1x1x1x1x4 : Shape := ⟨5, ![1, 1, 1, 1, 4]⟩
abbrev S2x64x96x96x4 : Shape := ⟨5, ![2, 64, 96, 96, 4]⟩
abbrev S64x96x96x2 : Shape := ⟨4, ![64, 96, 96, 2]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S64x96x96x1x2 : Shape := ⟨5, ![64, 96, 96, 1, 2]⟩
abbrev S1x1x1x2x2 : Shape := ⟨5, ![1, 1, 1, 2, 2]⟩
abbrev S64x96x96x2x2 : Shape := ⟨5, ![64, 96, 96, 2, 2]⟩
abbrev S2x96x96x64 : Shape := ⟨4, ![2, 96, 96, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x96x96x1x64 : Shape := ⟨5, ![2, 96, 96, 1, 64]⟩
abbrev S1x1x1x64x64 : Shape := ⟨5, ![1, 1, 1, 64, 64]⟩
abbrev S2x96x96x64x64 : Shape := ⟨5, ![2, 96, 96, 64, 64]⟩
abbrev S96 : Shape := ⟨1, ![96]⟩
abbrev S96x1 : Shape := ⟨2, ![96, 1]⟩
abbrev S1x96 : Shape := ⟨2, ![1, 96]⟩
abbrev S96x96 : Shape := ⟨2, ![96, 96]⟩
abbrev S2x64x96x1x96 : Shape := ⟨5, ![2, 64, 96, 1, 96]⟩
abbrev S1x1x1x96x96 : Shape := ⟨5, ![1, 1, 1, 96, 96]⟩
abbrev S2x64x96x96x96 : Shape := ⟨5, ![2, 64, 96, 96, 96]⟩
abbrev S2x1x64x96x96 : Shape := ⟨5, ![2, 1, 64, 96, 96]⟩
abbrev S4 : Shape := ⟨1, ![4]⟩

abbrev nBuf : Space → Nat
  | .hbm => 108
  | .vmem => 0
  | .smem => 0
  | _ => 0

abbrev bufTy : (tb : Table) → Fin (tcTables nBuf tb) → BufTy
  | .hbm, ⟨0, _⟩ => ⟨S2x4x64x96x96, .f32⟩
  | .hbm, ⟨1, _⟩ => ⟨S2x64x96x96, .i32⟩
  | .hbm, ⟨2, _⟩ => ⟨S2x4x64x96x96, .f32⟩
  | .hbm, ⟨3, _⟩ => ⟨S2x4x64x96x96, .f32⟩
  | .hbm, ⟨4, _⟩ => ⟨S_, .f32⟩
  | .hbm, ⟨5, _⟩ => ⟨S2x4x64x96x96, .f32⟩
  | .hbm, ⟨6, _⟩ => ⟨S2x4x64x96x96, .f32⟩
  | .hbm, ⟨7, _⟩ => ⟨S_, .f32⟩
  | .hbm, ⟨8, _⟩ => ⟨S2x4x64x96x96, .f32⟩
  | .hbm, ⟨9, _⟩ => ⟨S2x4x64x96x96, .f32⟩
  | .hbm, ⟨10, _⟩ => ⟨S2x64x96x96x1, .i32⟩
  | .hbm, ⟨11, _⟩ => ⟨S1x1x1x1x4, .i32⟩
  | .hbm, ⟨12, _⟩ => ⟨S2x64x96x96x4, .i32⟩
  | .hbm, ⟨13, _⟩ => ⟨S2x64x96x96x4, .i32⟩
  | .hbm, ⟨14, _⟩ => ⟨S2x64x96x96x4, .i1⟩
  | .hbm, ⟨15, _⟩ => ⟨S2x64x96x96x4, .f32⟩
  | .hbm, ⟨16, _⟩ => ⟨S_, .f32⟩
  | .hbm, ⟨17, _⟩ => ⟨S2x64x96x96, .f32⟩
  | .hbm, ⟨18, _⟩ => ⟨S_, .f32⟩
  | .hbm, ⟨19, _⟩ => ⟨S2x64x96x96, .f32⟩
  | .hbm, ⟨20, _⟩ => ⟨S2x64x96x96, .f32⟩
  | .hbm, ⟨21, _⟩ => ⟨S_, .f32⟩
  | .hbm, ⟨22, _⟩ => ⟨S2x64x96x96, .f32⟩
  | .hbm, ⟨23, _⟩ => ⟨S2x64x96x96, .i1⟩
  | .hbm, ⟨24, _⟩ => ⟨S_, .f32⟩
  | .hbm, ⟨25, _⟩ => ⟨S_, .f32⟩
  | .hbm, ⟨26, _⟩ => ⟨S2x64x96x96, .f32⟩
  | .hbm, ⟨27, _⟩ => ⟨S2x64x96x96, .f32⟩
  | .hbm, ⟨28, _⟩ => ⟨S2x64x96x96, .f32⟩
  | .hbm, ⟨29, _⟩ => ⟨S64x96x96x2, .f32⟩
  | .hbm, ⟨30, _⟩ => ⟨S2, .i32⟩
  | .hbm, ⟨31, _⟩ => ⟨S2x1, .i32⟩
  | .hbm, ⟨32, _⟩ => ⟨S1x2, .i32⟩
  | .hbm, ⟨33, _⟩ => ⟨S2x2, .i32⟩
  | .hbm, ⟨34, _⟩ => ⟨S2x2, .i32⟩
  | .hbm, ⟨35, _⟩ => ⟨S2x2, .i32⟩
  | .hbm, ⟨36, _⟩ => ⟨S2x2, .i32⟩
  | .hbm, ⟨37, _⟩ => ⟨S2x2, .f32⟩
  | .hbm, ⟨38, _⟩ => ⟨S64x96x96x1x2, .f32⟩
  | .hbm, ⟨39, _⟩ => ⟨S1x1x1x2x2, .f32⟩
  | .hbm, ⟨40, _⟩ => ⟨S64x96x96x2x2, .f32⟩
  | .hbm, ⟨41, _⟩ => ⟨S64x96x96x2x2, .f32⟩
  | .hbm, ⟨42, _⟩ => ⟨S64x96x96x2x2, .f32⟩
  | .hbm, ⟨43, _⟩ => ⟨S_, .f32⟩
  | .hbm, ⟨44, _⟩ => ⟨S64x96x96x2, .f32⟩
  | .hbm, ⟨45, _⟩ => ⟨S2x64x96x96, .f32⟩
  | .hbm, ⟨46, _⟩ => ⟨S2x96x96x64, .f32⟩
  | .hbm, ⟨47, _⟩ => ⟨S64, .i32⟩
  | .hbm, ⟨48, _⟩ => ⟨S64x1, .i32⟩
  | .hbm, ⟨49, _⟩ => ⟨S1x64, .i32⟩
  | .hbm, ⟨50, _⟩ => ⟨S64x64, .i32⟩
  | .hbm, ⟨51, _⟩ => ⟨S64x64, .i32⟩
  | .hbm, ⟨52, _⟩ => ⟨S64x64, .i32⟩
  | .hbm, ⟨53, _⟩ => ⟨S64x64, .i32⟩
  | .hbm, ⟨54, _⟩ => ⟨S64x64, .f32⟩
  | .hbm, ⟨55, _⟩ => ⟨S2x96x96x1x64, .f32⟩
  | .hbm, ⟨56, _⟩ => ⟨S1x1x1x64x64, .f32⟩
  | .hbm, ⟨57, _⟩ => ⟨S2x96x96x64x64, .f32⟩
  | .hbm, ⟨58, _⟩ => ⟨S2x96x96x64x64, .f32⟩
  | .hbm, ⟨59, _⟩ => ⟨S2x96x96x64x64, .f32⟩
  | .hbm, ⟨60, _⟩ => ⟨S_, .f32⟩
  | .hbm, ⟨61, _⟩ => ⟨S2x96x96x64, .f32⟩
  | .hbm, ⟨62, _⟩ => ⟨S2x64x96x96, .f32⟩
  | .hbm, ⟨63, _⟩ => ⟨S2x64x96x96, .f32⟩
  | .hbm, ⟨64, _⟩ => ⟨S96, .i32⟩
  | .hbm, ⟨65, _⟩ => ⟨S96x1, .i32⟩
  | .hbm, ⟨66, _⟩ => ⟨S1x96, .i32⟩
  | .hbm, ⟨67, _⟩ => ⟨S96x96, .i32⟩
  | .hbm, ⟨68, _⟩ => ⟨S96x96, .i32⟩
  | .hbm, ⟨69, _⟩ => ⟨S96x96, .i32⟩
  | .hbm, ⟨70, _⟩ => ⟨S96x96, .i32⟩
  | .hbm, ⟨71, _⟩ => ⟨S96x96, .f32⟩
  | .hbm, ⟨72, _⟩ => ⟨S2x64x96x1x96, .f32⟩
  | .hbm, ⟨73, _⟩ => ⟨S1x1x1x96x96, .f32⟩
  | .hbm, ⟨74, _⟩ => ⟨S2x64x96x96x96, .f32⟩
  | .hbm, ⟨75, _⟩ => ⟨S2x64x96x96x96, .f32⟩
  | .hbm, ⟨76, _⟩ => ⟨S2x64x96x96x96, .f32⟩
  | .hbm, ⟨77, _⟩ => ⟨S_, .f32⟩
  | .hbm, ⟨78, _⟩ => ⟨S2x64x96x96, .f32⟩
  | .hbm, ⟨79, _⟩ => ⟨S2x64x96x96, .f32⟩
  | .hbm, ⟨80, _⟩ => ⟨S96, .i32⟩
  | .hbm, ⟨81, _⟩ => ⟨S96x1, .i32⟩
  | .hbm, ⟨82, _⟩ => ⟨S1x96, .i32⟩
  | .hbm, ⟨83, _⟩ => ⟨S96x96, .i32⟩
  | .hbm, ⟨84, _⟩ => ⟨S96x96, .i32⟩
  | .hbm, ⟨85, _⟩ => ⟨S96x96, .i32⟩
  | .hbm, ⟨86, _⟩ => ⟨S96x96, .i32⟩
  | .hbm, ⟨87, _⟩ => ⟨S96x96, .f32⟩
  | .hbm, ⟨88, _⟩ => ⟨S2x64x96x1x96, .f32⟩
  | .hbm, ⟨89, _⟩ => ⟨S1x1x1x96x96, .f32⟩
  | .hbm, ⟨90, _⟩ => ⟨S2x64x96x96x96, .f32⟩
  | .hbm, ⟨91, _⟩ => ⟨S2x64x96x96x96, .f32⟩
  | .hbm, ⟨92, _⟩ => ⟨S2x64x96x96x96, .f32⟩
  | .hbm, ⟨93, _⟩ => ⟨S_, .f32⟩
  | .hbm, ⟨94, _⟩ => ⟨S2x64x96x96, .f32⟩
  | .hbm, ⟨95, _⟩ => ⟨S2x64x96x96, .f32⟩
  | .hbm, ⟨96, _⟩ => ⟨S2x1x64x96x96, .f32⟩
  | .hbm, ⟨97, _⟩ => ⟨S2x4x64x96x96, .f32⟩
  | .hbm, ⟨98, _⟩ => ⟨S2x4x64x96x96, .f32⟩
  | .hbm, ⟨99, _⟩ => ⟨S_, .f32⟩
  | .hbm, ⟨100, _⟩ => ⟨S4, .f32⟩
  | .hbm, ⟨101, _⟩ => ⟨S_, .f32⟩
  | .hbm, ⟨102, _⟩ => ⟨S4, .f32⟩
  | .hbm, ⟨103, _⟩ => ⟨S4, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S2x4x64x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_cst_5 : Ref sig .tc := ⟨.hbm, 25, rfl⟩
abbrev main_call1_v0 : Ref sig .tc := ⟨.hbm, 26, rfl⟩
abbrev main_call1_v1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩

abbrev nD : Nat := 1
abbrev τ : Topo := Topo.v7x

variable {F : FTy → Type} [FloatOps F]

class Facts₀ : Prop where
  bcast_S_S2x4x64x96x96 : S_.BroadcastsInDim S2x4x64x96x96 (![] : Fin 0 → Fin S2x4x64x96x96.rank)
  bcast_S2x64x96x96_S2x64x96x96x1_0_1_2_3 : S2x64x96x96.BroadcastsInDim S2x64x96x96x1 (![0, 1, 2, 3] : Fin 4 → Fin S2x64x96x96x1.rank)
  bcast_S2x64x96x96x1_S2x64x96x96x4_0_1_2_3_4 : S2x64x96x96x1.BroadcastsInDim S2x64x96x96x4 (![0, 1, 2, 3, 4] : Fin 5 → Fin S2x64x96x96x4.rank)
  bcast_S1x1x1x1x4_S2x64x96x96x4_0_1_2_3_4 : S1x1x1x1x4.BroadcastsInDim S2x64x96x96x4 (![0, 1, 2, 3, 4] : Fin 5 → Fin S2x64x96x96x4.rank)
  reducesTo_S2x64x96x96x4_S2x64x96x96_d4 : S2x64x96x96x4.ReducesTo [4] S2x64x96x96
  h_S_ : 0 < S_.numel
  bcast_S_S2x64x96x96 : S_.BroadcastsInDim S2x64x96x96 (![] : Fin 0 → Fin S2x64x96x96.rank)
  transposes_S2x64x96x96_S64x96x96x2_1_2_3_0 : S2x64x96x96.Transposes [1, 2, 3, 0] S64x96x96x2
  bcast_S2_S2x1_0 : S2.BroadcastsInDim S2x1 (![0] : Fin 1 → Fin S2x1.rank)
  bcast_S2_S1x2_1 : S2.BroadcastsInDim S1x2 (![1] : Fin 1 → Fin S1x2.rank)
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S64x96x96x2_S64x96x96x1x2_0_1_2_4 : S64x96x96x2.BroadcastsInDim S64x96x96x1x2 (![0, 1, 2, 4] : Fin 4 → Fin S64x96x96x1x2.rank)
  bcast_S2x2_S1x1x1x2x2_3_4 : S2x2.BroadcastsInDim S1x1x1x2x2 (![3, 4] : Fin 2 → Fin S1x1x1x2x2.rank)
  bcast_S64x96x96x1x2_S64x96x96x2x2_0_1_2_3_4 : S64x96x96x1x2.BroadcastsInDim S64x96x96x2x2 (![0, 1, 2, 3, 4] : Fin 5 → Fin S64x96x96x2x2.rank)
  bcast_S1x1x1x2x2_S64x96x96x2x2_0_1_2_3_4 : S1x1x1x2x2.BroadcastsInDim S64x96x96x2x2 (![0, 1, 2, 3, 4] : Fin 5 → Fin S64x96x96x2x2.rank)
  reducesTo_S64x96x96x2x2_S64x96x96x2_d4 : S64x96x96x2x2.ReducesTo [4] S64x96x96x2
  transposes_S64x96x96x2_S2x64x96x96_3_0_1_2 : S64x96x96x2.Transposes [3, 0, 1, 2] S2x64x96x96
  transposes_S2x64x96x96_S2x96x96x64_0_2_3_1 : S2x64x96x96.Transposes [0, 2, 3, 1] S2x96x96x64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S2x96x96x64_S2x96x96x1x64_0_1_2_4 : S2x96x96x64.BroadcastsInDim S2x96x96x1x64 (![0, 1, 2, 4] : Fin 4 → Fin S2x96x96x1x64.rank)
  bcast_S64x64_S1x1x1x64x64_3_4 : S64x64.BroadcastsInDim S1x1x1x64x64 (![3, 4] : Fin 2 → Fin S1x1x1x64x64.rank)
  bcast_S2x96x96x1x64_S2x96x96x64x64_0_1_2_3_4 : S2x96x96x1x64.BroadcastsInDim S2x96x96x64x64 (![0, 1, 2, 3, 4] : Fin 5 → Fin S2x96x96x64x64.rank)
  bcast_S1x1x1x64x64_S2x96x96x64x64_0_1_2_3_4 : S1x1x1x64x64.BroadcastsInDim S2x96x96x64x64 (![0, 1, 2, 3, 4] : Fin 5 → Fin S2x96x96x64x64.rank)
  reducesTo_S2x96x96x64x64_S2x96x96x64_d4 : S2x96x96x64x64.ReducesTo [4] S2x96x96x64
  transposes_S2x96x96x64_S2x64x96x96_0_3_1_2 : S2x96x96x64.Transposes [0, 3, 1, 2] S2x64x96x96
  transposes_S2x64x96x96_S2x64x96x96_0_1_3_2 : S2x64x96x96.Transposes [0, 1, 3, 2] S2x64x96x96
  bcast_S96_S96x1_0 : S96.BroadcastsInDim S96x1 (![0] : Fin 1 → Fin S96x1.rank)
  bcast_S96_S1x96_1 : S96.BroadcastsInDim S1x96 (![1] : Fin 1 → Fin S1x96.rank)
  bcast_S96x1_S96x96_0_1 : S96x1.BroadcastsInDim S96x96 (![0, 1] : Fin 2 → Fin S96x96.rank)
  bcast_S1x96_S96x96_0_1 : S1x96.BroadcastsInDim S96x96 (![0, 1] : Fin 2 → Fin S96x96.rank)
  bcast_S2x64x96x96_S2x64x96x1x96_0_1_2_4 : S2x64x96x96.BroadcastsInDim S2x64x96x1x96 (![0, 1, 2, 4] : Fin 4 → Fin S2x64x96x1x96.rank)
  bcast_S96x96_S1x1x1x96x96_3_4 : S96x96.BroadcastsInDim S1x1x1x96x96 (![3, 4] : Fin 2 → Fin S1x1x1x96x96.rank)
  bcast_S2x64x96x1x96_S2x64x96x96x96_0_1_2_3_4 : S2x64x96x1x96.BroadcastsInDim S2x64x96x96x96 (![0, 1, 2, 3, 4] : Fin 5 → Fin S2x64x96x96x96.rank)
  bcast_S1x1x1x96x96_S2x64x96x96x96_0_1_2_3_4 : S1x1x1x96x96.BroadcastsInDim S2x64x96x96x96 (![0, 1, 2, 3, 4] : Fin 5 → Fin S2x64x96x96x96.rank)
  reducesTo_S2x64x96x96x96_S2x64x96x96_d4 : S2x64x96x96x96.ReducesTo [4] S2x64x96x96
  bcast_S2x64x96x96_S2x1x64x96x96_0_2_3_4 : S2x64x96x96.BroadcastsInDim S2x1x64x96x96 (![0, 2, 3, 4] : Fin 4 → Fin S2x1x64x96x96.rank)
  bcast_S2x1x64x96x96_S2x4x64x96x96_0_1_2_3_4 : S2x1x64x96x96.BroadcastsInDim S2x4x64x96x96 (![0, 1, 2, 3, 4] : Fin 5 → Fin S2x4x64x96x96.rank)
  reducesTo_S2x4x64x96x96_S4_d0_2_3_4 : S2x4x64x96x96.ReducesTo [0, 2, 3, 4] S4
  bcast_S_S4 : S_.BroadcastsInDim S4 (![] : Fin 0 → Fin S4.rank)
  reducesTo_S4_S_d0 : S4.ReducesTo [0] S_

variable [Facts₀]

class Facts : Prop extends Facts₀ where

variable [Facts]
-- ==== Proof.LibZero.lean ====
/-
  General facts for a computation that collapses to zero when every class label is valid.

  * A label `t` of a four-class problem is valid when `0 ≤ t` and `t < 4` as signed 32-bit words; then `t` is one of
    the words 0, 1, 2, 3.
  * Over the extended reals: `√0 = 0`; `0 / y = 0` for `y ≠ 0`; the few f32 patterns met here and the numbers they denote.
  * A minimum taken along one axis of a field of non-negative entries, started from a non-negative value, is `0` at
    every place whose fibre holds a zero entry.
  * A sum (over any set of axes) of the zero field is the value it starts from.
  * The square of a difference of two small naturals, computed in 32-bit words, is a non-negative integer, and `0` on
    the diagonal.
-/
import Idealize.ShloMosaic.PureOps.Ideal.Laws
import Idealize.ShloMosaic.PureOps.Reduce
import Idealize.ShloMosaic.Lib.IdealHost
import Idealize.ShloMosaic.Lib.StableHlo.Predicate
import Idealize.ShloMosaic.Lib.ValueIdx

noncomputable section

namespace Cert.LibZero

open Idealize.ShloMosaic

/-! ## Valid labels -/

/-- `t` is a valid label of a four-class problem: `0 ≤ t` and `t < 4`, both read signed. -/
def InRange (t : BitVec 32) : Prop := IntOp.cmpi .sge t 0#32 = 1#1 ∧ IntOp.cmpi .slt t 4#32 = 1#1

/-- A valid label, read unsigned, is below 4: a word that is non-negative when read signed is its unsigned value. -/
theorem inRange_toNat {t : BitVec 32} (h : InRange t) : t.toNat < 4 := by
  obtain ⟨h1, h2⟩ := h
  unfold IntOp.cmpi at h1 h2
  rw [StableHlo.Predicate.ofBool_eq_one_iff] at h1 h2
  dsimp only at h1 h2
  rw [BitVec.sle, decide_eq_true_eq] at h1
  rw [BitVec.slt, decide_eq_true_eq] at h2
  have h0 : (0#32 : BitVec 32).toInt = 0 := by decide
  have h4 : (4#32 : BitVec 32).toInt = 4 := by decide
  rw [h0] at h1; rw [h4] at h2
  rw [BitVec.toInt_eq_toNat_cond] at h1 h2
  have := t.isLt
  split at h1 <;> omega

/-- So a valid label is one of the four words 0, 1, 2, 3. -/
theorem inRange_cases {t : BitVec 32} (h : InRange t) : t = 0#32 ∨ t = 1#32 ∨ t = 2#32 ∨ t = 3#32 := by
  have h4 := inRange_toNat h
  have e : t = BitVec.ofNat 32 t.toNat := (BitVec.ofNat_toNat ..).symm ▸ (by simp)
  generalize t.toNat = n at h4 e
  subst e
  interval_cases n <;> simp

/-! ## A few values on the extended reals -/

theorem sqrt_zero : Ideal.sqrt 0 = 0 := by
  rw [← EReal.coe_zero, Ideal.sqrt_coe]; simp

/-- `0 / y = 0` off `y = 0` (at `y = 0` the quotient `0 / 0` is junk). -/
theorem div_zero_left {y : EReal} (hy : y ≠ 0) : Ideal.div 0 y = 0 := by
  unfold Ideal.div; rw [if_neg hy, zero_mul]

/-- The pattern of `+∞`. -/
theorem ofBits_inf : Ideal.ofBits .f32 0x7F800000#32 = ⊤ := by
  simp [Ideal.ofBits, Ideal.ieee]

/-- `4.0`: the number of classes. -/
theorem ofBits_four : Ideal.ofBits .f32 0x40800000#32 = ((4 : ℝ) : EReal) := by
  simp [Ideal.ofBits, Ideal.ieee, -EReal.coe_mul]; norm_num

/-- `1179648.0 = 2 · 64 · 96 · 96`: the number of voxels. -/
theorem ofBits_voxels : Ideal.ofBits .f32 0x49900000#32 = ((1179648 : ℝ) : EReal) := by
  simp [Ideal.ofBits, Ideal.ieee, -EReal.coe_mul]; norm_num

/-- `4718592.0 = 4 · 1179648`: the number of (class, voxel) entries. -/
theorem ofBits_entries : Ideal.ofBits .f32 0x4A900000#32 = ((4718592 : ℝ) : EReal) := by
  simp [Ideal.ofBits, Ideal.ieee, -EReal.coe_mul]; norm_num

/-! ## Minima and sums of special fields -/

/-- A minimum over finitely many non-negative values, started from a non-negative value, one of the values being `0`, is `0`. -/
theorem fold_min_eq_zero {n : ℕ} (g : Fin n → EReal) (b : EReal) (hb : 0 ≤ b) (hg : ∀ k, 0 ≤ g k) (k0 : Fin n) (h0 : g k0 = 0) :
    (Finset.univ : Finset (Fin n)).fold min b g = 0 := by
  apply le_antisymm
  · exact (Finset.fold_min_le _).2 (Or.inr ⟨k0, Finset.mem_univ _, h0.le⟩)
  · exact (Finset.le_fold_min _).2 ⟨hb, fun k _ => hg k⟩

/-- The minimum along one axis of a field of non-negative entries, started from a non-negative value, is the zero field
    as soon as every fibre along that axis holds a zero entry. -/
theorem hostReduce_min_eq_zero {s t u : Shape} {a : Fin s.rank} (x : s.Idx → Ideal .f32) (init : u.Idx → Ideal .f32)
    (h' : s.ReducesTo [a] t) (h : s.Reduces [a] t) (hu : 0 < u.numel)
    (hinit : (0 : EReal) ≤ init (Shape.Idx.first hu)) (hx : ∀ i, (0 : EReal) ≤ x i) (hdiag : ∀ j, ∃ k, x (h.lift j k) = (0 : EReal)) :
    Host.reduce FloatOps.minimumf x init h' hu = fun _ => (0 : EReal) := by
  funext j
  rw [Host.reduce_eq_fold_single FloatOps.minimumf x init h' h hu j]
  obtain ⟨k, hk⟩ := hdiag j
  exact fold_min_eq_zero _ _ hinit (fun k => hx _) k hk

/-- A sum of the zero field over any axes, started from `init`, is `init` everywhere. -/
theorem hostReduceAdd_zero {s t : Shape} {axes : List (Fin s.rank)} (h : s.ReducesTo axes t) (init : EReal) :
    Ideal.hostReduceAdd h (fun _ => (0 : EReal)) init = fun _ => init := by
  funext j; unfold Ideal.hostReduceAdd; rw [Finset.sum_const_zero, add_zero]

/-- A sum of the zero field over any axes is the zero field. -/
theorem reduceAdd_zero {s t : Shape} {axes : List (Fin s.rank)} (h : s.Reduces axes t) :
    Ideal.reduceAdd h (fun _ => (0 : EReal)) = fun _ => 0 := by
  funext j; unfold Ideal.reduceAdd; rw [Finset.sum_const_zero]

/-! ## Squared offsets in words -/

/-- For `a, b < 96` the word `(a − b) · (a − b)` is a non-negative integer when read signed (it is `(a − b)²  < 2³¹`);
    decided over the `96 · 96` pairs. -/
theorem sq_nonneg96 : ∀ a b : Fin 96, 0 ≤ (IntOp.muli (IntOp.subi (BitVec.ofNat 32 a.val) (BitVec.ofNat 32 b.val)) (IntOp.subi (BitVec.ofNat 32 a.val) (BitVec.ofNat 32 b.val))).toInt := by
  decide +kernel

/-- On the diagonal the squared offset is the zero word. -/
theorem sq_diag (w : BitVec 32) : IntOp.muli (IntOp.subi w w) (IntOp.subi w w) = 0#32 := by
  unfold IntOp.muli IntOp.subi; rw [BitVec.sub_self]; rfl

end Cert.LibZero

end
-- ==== Proof.KPay.lean ====
/-
  The kernel body's arithmetic on a block whose labels are all valid.

  With every label `t` of the block in `[0, 4)` the validity mask is 1, so `1 − 1 = 0` is the background indicator,
  the initial squared distance `(bg ≠ 0 ? 1e10 : 0)` is `0`, and `dist = √0 = 0` at every voxel. The partial sum
  `Σ logits · dist` is then a sum of zeros, `0`, and the accumulator update `acc + mask · 0` leaves the accumulator as it was.
-/
import proofs.«418121_j4861902979372_3_alg».proof.Proof.Gen.KernelIdeal.Skeleton
import proofs.«418121_j4861902979372_3_alg».proof.Proof.LibZero
import Idealize.ShloMosaic.Lib.Pipeline.Value

noncomputable section

namespace Cert.KernelIdeal.PayZero

open Cert.KernelIdeal Cert.KernelIdeal.Gen Idealize.ShloMosaic Cert.LibZero

/-- The distance field of a block of valid labels: `√(bg ≠ 0 ? 1e10 : 0)` with `bg = 1 − (valid ? 1 : 0) = 0`, so `√0 = 0` everywhere. -/
theorem dist_zero {s : Shape} (v4 : IVec s 32) (h : ∀ i, InRange (v4 i)) :
    sqrt (F := Ideal) (select (cmpf .one (subf (broadcast s (Scalar.ofBits .f32 0x3F800000#32))
        (select (andi (cmpi .sge v4 (broadcast s 0#32)) (cmpi .slt v4 (broadcast s 4#32)))
          (broadcast s (Scalar.ofBits (F := Ideal) .f32 0x3F800000#32)) (broadcast s (Scalar.ofBits .f32 0x00000000#32))))
        (broadcast s (Scalar.ofBits .f32 0x00000000#32)))
      (broadcast s (Scalar.ofBits .f32 0x501502F9#32)) (broadcast s (Scalar.ofBits .f32 0x00000000#32)))
    = fun _ => (0 : EReal) := by
  funext i
  obtain ⟨h1, h2⟩ := h i
  simp only [sqrt, select, cmpf, subf, andi, cmpi, broadcast, h1, h2]
  have hand : IntOp.andi 1#1 1#1 = 1#1 := by decide
  have hsub : (1 : EReal) - 1 = 0 := by rw [← EReal.coe_one, ← EReal.coe_sub, sub_self, EReal.coe_zero]
  have hcmp : Ideal.cmp .one (0 : EReal) 0 = 0#1 := by simp [Ideal.cmp]
  rw [hand, ValueIdx.select_one]
  simp only [Ideal.ofBits_def, Ideal.ofBits_one_f32, Ideal.ofBits_zero_f32, Ideal.subf_def, Ideal.cmpf_def, Ideal.sqrt_def, hsub, hcmp,
    ValueIdx.select_zero, sqrt_zero]

/-! ## Constant fields pass through re-layouts, products with the zero field and sums of it vanish -/

theorem shapeCast_const {s t : Shape} {α : Type} (a : α) (h : s.ShapeCasts t) : shapeCast t (fun _ : s.Idx => a) h = fun _ => a := rfl

theorem broadcastTo_const {s t : Shape} {α : Type} (a : α) (h : s.Broadcasts t) : broadcastTo t (fun _ : s.Idx => a) h = fun _ => a := rfl

theorem extractAt_const {s : Shape} {α : Type} (pos : Fin s.rank → Nat) (a : α) (h : ∀ b, pos b < s.size b) :
    extractAt pos (fun _ : s.Idx => a) h = a := rfl

theorem mulf_zero_right {s : Shape} (x : FVec Ideal s .f32) : mulf x (fun _ => (0 : EReal)) = fun _ => (0 : EReal) := by
  funext i; simp only [mulf, Ideal.mulf_def, mul_zero]

theorem floatReduceAdd_zero {s t : Shape} (axes : List (Fin s.rank)) (h : s.Reduces axes t) :
    FloatOps.reduceAdd (F := Ideal) (φ := .f32) axes h (fun _ => (0 : EReal)) = fun _ => (0 : EReal) :=
  reduceAdd_zero h

/-- The block's partial sum `Σ logits · dist` over a block of valid labels is `0`: `dist` is the zero field, the products are
    zero, and so is each of the four sums taken one axis at a time. -/
theorem pay3_zero (v3 : Vec Ideal S2x8x9216 .i32) (v22 : Vec Ideal S2x4x8x9216 .f32) (h : ∀ i, InRange (v3 i)) :
    k0_pay3 (F := Ideal) v3 v22 = (0 : EReal) := by
  have hv : ∀ i, InRange (shapeCast S2x8x9216 v3 shapeCasts_S2x8x9216_S2x8x9216 i) := fun i => h _
  unfold k0_pay3
  simp only [dist_zero _ hv, shapeCast_const, broadcastTo_const, mulf_zero_right, multiReduction, floatReduceAdd_zero, extractAt_const]

/-- The accumulator's reset value is the zero field. -/
theorem pay2_zero : k0_pay2 (F := Ideal) = fun _ => (0 : EReal) := by
  unfold k0_pay2; funext i; simp only [broadcast, Ideal.ofBits_def, Ideal.ofBits_zero_f32]

/-- Adding `mask · 0` to the accumulator leaves it as it was, whatever the mask. -/
theorem pay1_zero (v35 : IVec S8x128 32) (v44 : Vec Ideal S8x128 .f32) : k0_pay1 (F := Ideal) (0 : EReal) v35 v44 = v44 := by
  unfold k0_pay1
  funext i
  simp only [addf, mulf, broadcast, Ideal.addf_def, Ideal.mulf_def, mul_zero, add_zero, shapeCast_self]

end Cert.KernelIdeal.PayZero

end
-- ==== Proof.KOut.lean ====
/-
  What the idealized kernel leaves when every label is valid: the zero scalar.

  At every grid point the body adds `mask · s` to the core's 8×128 accumulator, `s = Σ logits · dist` over the point's
  block; with all labels valid `s = 0`, so after every point the accumulator is the zero field: it is reset to zero at the
  first of a core's four points and left unchanged by each update. The two write-backs (after each core's last point)
  cover the 16×128 result array, which therefore ends as the zero field; the host then sums it, `0 + Σ 0 = 0`, and
  divides by the number of (class, voxel) entries, `0 / 4718592 = 0`.
-/
import proofs.«418121_j4861902979372_3_alg».proof.Proof.Gen.KernelIdeal.Frame
import proofs.«418121_j4861902979372_3_alg».proof.Proof.KPay

set_option maxRecDepth 16384

noncomputable section

namespace Cert.KernelIdeal.OutZero

open Cert.KernelIdeal Cert.KernelIdeal.Gen Idealize.ShloMosaic Idealize.ShloMosaic.TcCoe Idealize.ShloMosaic.Tactic Cert.LibZero Cert.KernelIdeal.PayZero
open Idealize.SL Idealize.SL.Sem
open Idealize.ShloMosaic.Pipeline (Dat Cfg Window)

/-! ## What each control case leaves in the accumulator, as the body's arithmetic -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a core's first point the accumulator is reset and then updated: it ends at `reset + mask · s`. -/
theorem pieceA (c : Dev nD) (i : grid0.Coords) (arg2 : Memref sig .tc .vmem S2x4x8x9216 .f32) (harg2 : arg2.IsWhole) (arg3 : Memref sig .tc .vmem S2x8x9216 .i32) (harg3 : arg3.IsWhole) (arg4 : Memref sig .tc .vmem S8x128 .f32) (harg4 : arg4.IsWhole) (hc0 : cond0_0 i)
    (x0 : Vec F S2x4x8x9216 .f32) (x1 : Vec F S2x8x9216 .i32) :
    out0_A_2 c i arg2 harg2 arg3 harg3 arg4 harg4 hc0 x0 x1 = k0_pay1 (k0_pay3 x1 x0) (iota .tc S8x128 32 [0] iota_S8x128_d0_w32) (k0_pay2 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S8x128) hz2]
  simp only [View.readAt_eq_ld, harg3.read_unread, harg2.read_unread, View.ld_unit_zero (S := S2x8x9216) hz3,
    View.ld_unit_zero (S := S2x4x8x9216) hz4, View.readCov_unit_zero (S := S8x128) _ hz2]

/-- At a later point it is only updated: it ends at `previous + mask · s`. -/
theorem pieceB (c : Dev nD) (i : grid0.Coords) (arg2 : Memref sig .tc .vmem S2x4x8x9216 .f32) (harg2 : arg2.IsWhole) (arg3 : Memref sig .tc .vmem S2x8x9216 .i32) (harg3 : arg3.IsWhole) (arg4 : Memref sig .tc .vmem S8x128 .f32) (harg4 : arg4.IsWhole) (hc0 : ¬cond0_0 i)
    (x0 : Vec F S2x4x8x9216 .f32) (x1 : Vec F S2x8x9216 .i32) (xo2 : Vec F S8x128 .f32) :
    out0_B_2 c i arg2 harg2 arg3 harg3 arg4 harg4 hc0 x0 x1 xo2 = k0_pay1 (k0_pay3 x1 x0) (iota .tc S8x128 32 [0] iota_S8x128_d0_w32) xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero (S := S8x128) hz2]
  simp only [View.readAt_eq_ld, harg3.read_unread, harg2.read_unread, harg4.read_unread, View.ld_unit_zero (S := S2x8x9216) hz3,
    View.ld_unit_zero (S := S2x4x8x9216) hz4, View.ld_unit_zero (S := S8x128) hz2]

end Pieces

/-! ## Under valid labels -/

variable (m : (ℓ : Loc nD τ sig) → Buf (Elt Ideal) ℓ)

/-- Every entry of the label array, on every device, is a valid label. -/
def Valid : Prop := ∀ (c : Dev nD) (i : S2x64x96x96.Idx), InRange (m ((c.tc : Thread nD τ).loc main_arg1) i)

/-- The label array as the region finds it is the argument, flattened over its last two axes. -/
theorem V_labels (c : Dev nD) : (V m c main_v1 : S2x64x9216.Idx → BitVec 32)
    = shapeCast S2x64x9216 (m ((c.tc : Thread nD τ).loc main_arg1)) shapeCasts_S2x64x96x96_S2x64x9216 := by
  show StableHlo.after hostOps0 (fun b => m (c, b)) (Proc.devRef .tc main_v1) = _
  after_results; rfl

/-- So every entry of every block of labels the body loads is a valid label: a block's entry is an entry of the array. -/
theorem tblk_valid (hv : Valid m) (c : Dev nD) (t : Fin cfg0.N) :
    ∀ y : S2x8x9216.Idx, InRange ((iblk m c 1 t : Vec Ideal S2x8x9216 .i32) y) := by
  intro y
  show InRange ((V m c main_v1 : S2x64x9216.Idx → BitVec 32) (((cfg0.win 1).blk t).view.emb y))
  rw [V_labels]
  exact hv c _

theorem caseA_zero (hv : Valid m) (c : Dev nD) (t : Fin cfg0.N) (h0 : t.val % 4 = 0) :
    outsAt0 m c t.val t.isLt = fun _ => (0 : EReal) := by
  rw [outsAt0_A m c t h0]
  refine (pieceA (F := Ideal) c (grid0.coords t) (ms0_0 t) (hs0_0 t) (ms0_1 t) (hs0_1 t) (ms0_2 t) (hs0_2 t) ((hcond0_0 t).mpr h0) (iblk m c 0 t) (iblk m c 1 t)).trans ?_
  rw [pay3_zero (iblk m c 1 t) (iblk m c 0 t) (tblk_valid m hv c t), pay1_zero, pay2_zero]

theorem caseB_eq (hv : Valid m) (c : Dev nD) (t : Fin cfg0.N) (h0 : ¬t.val % 4 = 0) :
    outsAt0 m c t.val t.isLt = outsAt0 m c (t.val - 1) (Nat.lt_of_le_of_lt (Nat.sub_le _ _) t.isLt) := by
  rw [outsAt0_B m c t h0]
  refine (pieceB (F := Ideal) c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt))).trans ?_
  rw [pay3_zero (iblk m c 1 t) (iblk m c 0 t) (tblk_valid m hv c t), pay1_zero]

/-- After every point the accumulator is the zero field: by induction on the point, a reset point leaving `0 + mask · 0`
    and every other point what the point before left. -/
theorem outs_zero (hv : Valid m) (c : Dev nD) : ∀ (n : ℕ) (h : n < cfg0.N), outsAt0 m c n h = fun _ => (0 : EReal)
  | 0, h => caseA_zero m hv c ⟨0, h⟩ rfl
  | n + 1, h => by
    by_cases h0 : (n + 1) % 4 = 0
    · exact caseA_zero m hv c ⟨n + 1, h⟩ h0
    · exact (caseB_eq m hv c ⟨n + 1, h⟩ h0).trans (outs_zero hv c n _)

/-- The zero field as contents of the result array. -/
abbrev zarr (c : Dev nD) : Buf (Elt Ideal) ((c : Thread nD τ).loc main_v2) := fun _ => (0 : EReal)

/-- Every write-back writes a block of zeros. -/
theorem flushed_zero (hv : Valid m) (c : Dev nD) (t : Fin cfg0.N) :
    (dats m 0 c).flushed 2 t = ((cfg0.win 2).blk t).view.read (Elt Ideal) (zarr c) := by
  show (cfg0.win 2).cut (grid0.coords t) ((dats m 0 c).after 2 t) = _
  rw [after0_2, outs_zero m hv c t.val t.isLt]
  rfl

/-- The two write-backs, after points 3 and 7, write rows 0–7 and 8–15 of the 16×128 result array: between them every
    row. So the array ends as the zero field. -/
theorem final_zero (hv : Valid m) (c : Dev nD) : (dats m 0 c).arrAt 2 cfg0.N = zarr c :=
  (dats m 0 c).arrAt_eq_of_cover 2 (zarr c) (fun t _ => flushed_zero m hv c t) fun i => by
    have h1 : (i 1 : Nat) < 128 := (i 1).isLt
    have h0 : (i 0 : Nat) < 16 := (i 0).isLt
    by_cases hi : (i 0 : Nat) < 8
    · refine ⟨t0_3, (flush0_2 t0_3).mpr rfl, ?_⟩
      show i ∈ ((View.whole main_v2).slice (win0_2.rect t0_3)).set
      rw [View.set_slice_whole, Rect.mem_set_unit]
      intro a
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 from by decide +kernel, show win0_2.xsize (grid0.coords t0_3) 0 = 8 from by decide +kernel]; omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 from by decide +kernel, show win0_2.xsize (grid0.coords t0_3) 1 = 128 from by decide +kernel]; omega
    · refine ⟨t0_7, (flush0_2 t0_7).mpr rfl, ?_⟩
      show i ∈ ((View.whole main_v2).slice (win0_2.rect t0_7)).set
      rw [View.set_slice_whole, Rect.mem_set_unit]
      intro a
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 8 from by decide +kernel, show win0_2.xsize (grid0.coords t0_7) 0 = 8 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 128 from by decide +kernel]; omega

/-- The host's tail on the zero array: `(0 + Σ 0) / 4718592 = 0`. -/
theorem tail_zero (hv : Valid m) (c : Dev nD) :
    Pipeline.afterTail₀ cfgs (dats m) 0 (V0 m) [hostOps1] c main_v4 = fun _ => (0 : EReal) := by
  unfold Pipeline.afterTail₀
  show StableHlo.after hostOps1 _ (Proc.devRef .tc main_v4) = _
  after_results
  rw [(Pipeline.withArrays_arr spec0 launch0.win.arr_inj c _ _ 2).trans (final_zero m hv c)]
  funext j
  simp only [Host.divf, Host.reduceAdd, Ideal.hostReduceAdd_def, hostReduceAdd_zero, constant, Ideal.ofBits_def,
    Ideal.ofBits_zero_f32, Ideal.hostDivf_def, ofBits_entries]
  rw [show Ideal.hostReduceAdd reducesTo_S16x128_S_d0_1 (zarr c) 0 j = (0 : EReal) from
    congrFun (hostReduceAdd_zero reducesTo_S16x128_S_d0_1 (0 : EReal)) j]
  exact div_zero_left (EReal.coe_ne_zero.mpr (by norm_num))

end Cert.KernelIdeal.OutZero

end
-- ==== Proof.KRun.lean ====
/-
  The idealized kernel's run when every label is valid: it ends with the scalar result `0` and the two arguments as launched.
-/
import proofs.«418121_j4861902979372_3_alg».proof.Proof.KOut

noncomputable section

namespace Cert.KernelIdeal.OutZero

open Cert.KernelIdeal Cert.KernelIdeal.Gen Idealize.ShloMosaic Idealize.ShloMosaic.TcCoe Cert.LibZero
open Idealize.SL Idealize.SL.Sem

/-- The zero scalar as contents of the result buffer. -/
abbrev zres (c : Dev nD) : Buf (Elt Ideal) ((c.tc : Thread nD τ).loc main_v4) := fun _ => (0 : EReal)

/-- Every weakly fair execution terminates with the result `0` (the host's tail applied to the zero array) and both arguments
    unchanged (nothing writes them). -/
theorem run_zero (m : (ℓ : Loc nD τ sig) → Buf (Elt Ideal) ℓ) (ρ : Dev nD → PrngReg) (hv : Valid m) :
    θ_run defs (onTc (τ := τ) (main (F := Ideal))) ⟨m, fun _ => 0, ρ⟩ (fun r => ∀ c : Dev nD,
      r.2.mem ((c.tc : Thread nD τ).loc main_v4) = zres c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_zero m hv c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.OutZero

end
-- ==== Proof.RefZero.lean ====
/-
  The reference's distance field when every label is valid: the zero field.

  `one_hot(t, 4)` of a valid label `t` has exactly one entry `1`, so its sum over the class axis is `1`; the background
  indicator `1 − 1` is `0`, and the initial squared distance `(bg ≠ 0 ? 1e10 : 0)` is `0` at every voxel. One pass of the
  squared distance transform along an axis sends a field `f` to `d[i] = min_j (f[j] + (i − j)²)`; on the zero field every
  candidate `(i − j)²` is non-negative and the candidate `j = i` is `0`, so the pass returns the zero field.
-/
import proofs.«418121_j4861902979372_3_alg».proof.Proof.RefRead
import proofs.«418121_j4861902979372_3_alg».proof.Proof.LibZero

noncomputable section

namespace Cert.ReferenceIdeal.RefZero

open Cert.ReferenceIdeal Cert.ReferenceIdeal.Gen Cert.ReferenceIdeal.Read Idealize.ShloMosaic Cert.LibZero

/-! ## Squared offsets as extended reals -/

/-- `(a − b)²`, computed in words and converted, is non-negative for `a, b < 96`. -/
theorem sqf_nonneg (a b : ℕ) (ha : a < 96) (hb : b < 96) :
    (0 : EReal) ≤ FloatOps.sitofp (F := Ideal) .f32 (IntOp.muli (IntOp.subi (BitVec.ofNat 32 a) (BitVec.ofNat 32 b)) (IntOp.subi (BitVec.ofNat 32 a) (BitVec.ofNat 32 b))) :=
  EReal.coe_nonneg.mpr (by exact_mod_cast sq_nonneg96 ⟨a, ha⟩ ⟨b, hb⟩)

/-- and it is `0` at `a = b`. -/
theorem sqf_diag (w : BitVec 32) :
    FloatOps.sitofp (F := Ideal) .f32 (IntOp.muli (IntOp.subi w w) (IntOp.subi w w)) = (0 : EReal) := by
  rw [sq_diag]; show (((0#32 : BitVec 32).toInt : ℝ) : EReal) = 0; simp

/-! ## The initial field -/

variable (x1 : (⟨S2x64x96x96, .i32⟩ : BufTy).Contents (Elt Ideal))

/-- Entry `k` of the one-hot row of the label at voxel `i`: `1` if the label is `k`, else `0`. -/
theorem onehot_entry (i : S2x64x96x96.Idx) (k : Fin 4) :
    val_main_v6 (F := Ideal) x1 (idx_main_v7 i k) = (((IntOp.cmpi .eq (x1 i) (BitVec.ofNat 32 k.val)).toNat : ℝ) : EReal) := by
  rw [val_main_v6_apply, val_main_call0_v4_apply, val_main_call0_v2_apply, val_main_call0_v0_apply, val_main_call0_v3_apply,
    val_main_call0_v1_apply]
  have e1 : idx_main_call0_v0 (idx_main_call0_v2 (idx_main_v7 i k)) = i :=
    funext fun a => Fin.ext (by match a with | ⟨0, _⟩ => rfl | ⟨1, _⟩ => rfl | ⟨2, _⟩ => rfl | ⟨3, _⟩ => rfl)
  rw [e1]; rfl

/-- A valid label matches exactly one of the four classes. -/
theorem onehot_count {t : BitVec 32} (h : InRange t) :
    (IntOp.cmpi .eq t (BitVec.ofNat 32 0)).toNat + (IntOp.cmpi .eq t (BitVec.ofNat 32 1)).toNat
      + (IntOp.cmpi .eq t (BitVec.ofNat 32 2)).toNat + (IntOp.cmpi .eq t (BitVec.ofNat 32 3)).toNat = 1 := by
  rcases inRange_cases h with h | h | h | h <;> subst h <;> decide

/-- So the foreground indicator, the sum of the one-hot row, is `1` at every voxel. -/
theorem binary_one (hx : ∀ i, InRange (x1 i)) : val_main_v7 (F := Ideal) x1 = fun _ => (1 : EReal) := by
  funext i
  rw [val_main_v7_apply, Fin.sum_univ_four, onehot_entry, onehot_entry, onehot_entry, onehot_entry, val_main_cst_1_apply]
  simp only [Ideal.ofBits_def, Ideal.ofBits_zero_f32, zero_add]
  have hc := onehot_count (hx i)
  show (((IntOp.cmpi .eq (x1 i) (BitVec.ofNat 32 0)).toNat : ℝ) : EReal) + (((IntOp.cmpi .eq (x1 i) (BitVec.ofNat 32 1)).toNat : ℝ) : EReal)
    + (((IntOp.cmpi .eq (x1 i) (BitVec.ofNat 32 2)).toNat : ℝ) : EReal) + (((IntOp.cmpi .eq (x1 i) (BitVec.ofNat 32 3)).toNat : ℝ) : EReal) = 1
  rw [← EReal.coe_add, ← EReal.coe_add, ← EReal.coe_add, ← Nat.cast_add, ← Nat.cast_add, ← Nat.cast_add, hc]
  simp

/-- Hence the initial squared-distance field is `0` at every voxel: the background indicator is `1 − 1 = 0`, which is not `≠ 0`. -/
theorem init_zero (hx : ∀ i, InRange (x1 i)) : val_main_v12 (F := Ideal) x1 = fun _ => (0 : EReal) := by
  funext i
  have hsub : (1 : EReal) - 1 = 0 := by rw [← EReal.coe_one, ← EReal.coe_sub, sub_self, EReal.coe_zero]
  have hcmp : Ideal.cmp .une (0 : EReal) 0 = 0#1 := by simp [Ideal.cmp]
  rw [val_main_v12_apply, val_main_v11_apply, val_main_v9_apply, val_main_v8_apply, val_main_v10_apply, val_main_call1_v1_apply,
    val_main_cst_2_apply, val_main_cst_3_apply, val_main_cst_5_apply, binary_one x1 hx]
  simp only [Ideal.ofBits_def, Ideal.ofBits_one_f32, Ideal.ofBits_zero_f32, Ideal.subf_def, Ideal.cmpf_def, hsub, hcmp,
    ValueIdx.select_zero]

/-! ## The four passes -/

/-- The pass along the batch axis (extent 2) keeps the zero field. -/
theorem pass1_zero (h12 : val_main_v12 (F := Ideal) x1 = fun _ => (0 : EReal)) :
    val_main_v27 (F := Ideal) x1 = fun _ => (0 : EReal) := by
  unfold val_main_v27
  refine hostReduce_min_eq_zero _ _ reducesTo_S64x96x96x2x2_S64x96x96x2_d4 (by decide) h_S_ ?_ ?_ ?_
  · rw [val_main_cst_6_apply]; simp only [Ideal.ofBits_def, ofBits_inf]; exact le_top
  · intro i
    rw [val_main_v26_apply, val_main_v24_apply, val_main_v22_apply, val_main_v13_apply, h12, val_main_v25_apply, val_main_v23_apply,
      val_main_v21_apply, val_main_v20_apply, val_main_v19_apply, val_main_v17_apply, val_main_v15_apply, val_main_v14_apply,
      val_main_v18_apply, val_main_v16_apply, val_main_v14_apply]
    simp only [Ideal.addf_def, zero_add]
    exact sqf_nonneg _ _ (lt_of_lt_of_le (i 3).isLt (by decide)) (lt_of_lt_of_le (i 4).isLt (by decide))
  · intro j
    refine ⟨⟨(j 3).val, (j 3).isLt⟩, ?_⟩
    rw [val_main_v26_apply, val_main_v24_apply, val_main_v22_apply, val_main_v13_apply, h12, val_main_v25_apply, val_main_v23_apply,
      val_main_v21_apply, val_main_v20_apply, val_main_v19_apply, val_main_v17_apply, val_main_v15_apply, val_main_v14_apply,
      val_main_v18_apply, val_main_v16_apply, val_main_v14_apply]
    simp only [Ideal.addf_def, zero_add]
    exact sqf_diag (BitVec.ofNat 32 (j 3).val)

/-- The pass along the depth axis (extent 64) keeps the zero field. -/
theorem pass2_zero (h27 : val_main_v27 (F := Ideal) x1 = fun _ => (0 : EReal)) :
    val_main_v43 (F := Ideal) x1 = fun _ => (0 : EReal) := by
  unfold val_main_v43
  refine hostReduce_min_eq_zero _ _ reducesTo_S2x96x96x64x64_S2x96x96x64_d4 (by decide) h_S_ ?_ ?_ ?_
  · rw [val_main_cst_7_apply]; simp only [Ideal.ofBits_def, ofBits_inf]; exact le_top
  · intro i
    rw [val_main_v42_apply, val_main_v40_apply, val_main_v38_apply, val_main_v29_apply, val_main_v28_apply, h27, val_main_v41_apply,
      val_main_v39_apply, val_main_v37_apply, val_main_v36_apply, val_main_v35_apply, val_main_v33_apply, val_main_v31_apply,
      val_main_v30_apply, val_main_v34_apply, val_main_v32_apply, val_main_v30_apply]
    simp only [Ideal.addf_def, zero_add]
    exact sqf_nonneg _ _ (lt_of_lt_of_le (i 3).isLt (by decide)) (lt_of_lt_of_le (i 4).isLt (by decide))
  · intro j
    refine ⟨⟨(j 3).val, (j 3).isLt⟩, ?_⟩
    rw [val_main_v42_apply, val_main_v40_apply, val_main_v38_apply, val_main_v29_apply, val_main_v28_apply, h27, val_main_v41_apply,
      val_main_v39_apply, val_main_v37_apply, val_main_v36_apply, val_main_v35_apply, val_main_v33_apply, val_main_v31_apply,
      val_main_v30_apply, val_main_v34_apply, val_main_v32_apply, val_main_v30_apply]
    simp only [Ideal.addf_def, zero_add]
    exact sqf_diag (BitVec.ofNat 32 (j 3).val)

end Cert.ReferenceIdeal.RefZero

end
-- ==== Proof.RefZero2.lean ====
/-
  The last two passes of the reference's distance transform on the zero field, and what follows them.

  The passes along the height and width axes (extent 96 each) keep the zero field, for the reason the first two do: every
  candidate `0 + (i − j)²` is non-negative and the candidate `j = i` is `0`. The distance is then `√0 = 0` at every voxel, each
  product `σ(logit) · 0` is `0`, the per-class sums are `0 + Σ 0 = 0`, their quotients by the voxel count are `0 / 1179648 = 0`,
  the sum over the four classes is `0`, and the mean over classes is `0 / 4 = 0`.
-/
import proofs.«418121_j4861902979372_3_alg».proof.Proof.RefZero

noncomputable section

namespace Cert.ReferenceIdeal.RefZero

open Cert.ReferenceIdeal Cert.ReferenceIdeal.Gen Cert.ReferenceIdeal.Read Idealize.ShloMosaic Cert.LibZero

variable (x1 : (⟨S2x64x96x96, .i32⟩ : BufTy).Contents (Elt Ideal))

/-- The pass along the height axis (extent 96) keeps the zero field. -/
theorem pass3_zero (h43 : val_main_v43 (F := Ideal) x1 = fun _ => (0 : EReal)) :
    val_main_v59 (F := Ideal) x1 = fun _ => (0 : EReal) := by
  unfold val_main_v59
  refine hostReduce_min_eq_zero _ _ reducesTo_S2x64x96x96x96_S2x64x96x96_d4 (by decide) h_S_ ?_ ?_ ?_
  · rw [val_main_cst_8_apply]; simp only [Ideal.ofBits_def, ofBits_inf]; exact le_top
  · intro i
    rw [val_main_v58_apply, val_main_v56_apply, val_main_v54_apply, val_main_v45_apply, val_main_v44_apply, h43, val_main_v57_apply,
      val_main_v55_apply, val_main_v53_apply, val_main_v52_apply, val_main_v51_apply, val_main_v49_apply, val_main_v47_apply,
      val_main_v46_apply, val_main_v50_apply, val_main_v48_apply, val_main_v46_apply]
    simp only [Ideal.addf_def, zero_add]
    exact sqf_nonneg _ _ (lt_of_lt_of_le (i 3).isLt (by decide)) (lt_of_lt_of_le (i 4).isLt (by decide))
  · intro j
    refine ⟨⟨(j 3).val, (j 3).isLt⟩, ?_⟩
    rw [val_main_v58_apply, val_main_v56_apply, val_main_v54_apply, val_main_v45_apply, val_main_v44_apply, h43, val_main_v57_apply,
      val_main_v55_apply, val_main_v53_apply, val_main_v52_apply, val_main_v51_apply, val_main_v49_apply, val_main_v47_apply,
      val_main_v46_apply, val_main_v50_apply, val_main_v48_apply, val_main_v46_apply]
    simp only [Ideal.addf_def, zero_add]
    exact sqf_diag (BitVec.ofNat 32 (j 3).val)

/-- The pass along the width axis (extent 96) keeps the zero field. -/
theorem pass4_zero (h59 : val_main_v59 (F := Ideal) x1 = fun _ => (0 : EReal)) :
    val_main_v74 (F := Ideal) x1 = fun _ => (0 : EReal) := by
  unfold val_main_v74
  refine hostReduce_min_eq_zero _ _ reducesTo_S2x64x96x96x96_S2x64x96x96_d4 (by decide) h_S_ ?_ ?_ ?_
  · rw [val_main_cst_9_apply]; simp only [Ideal.ofBits_def, ofBits_inf]; exact le_top
  · intro i
    rw [val_main_v73_apply, val_main_v71_apply, val_main_v69_apply, val_main_v60_apply, h59, val_main_v72_apply,
      val_main_v70_apply, val_main_v68_apply, val_main_v67_apply, val_main_v66_apply, val_main_v64_apply, val_main_v62_apply,
      val_main_v61_apply, val_main_v65_apply, val_main_v63_apply, val_main_v61_apply]
    simp only [Ideal.addf_def, zero_add]
    exact sqf_nonneg _ _ (lt_of_lt_of_le (i 3).isLt (by decide)) (lt_of_lt_of_le (i 4).isLt (by decide))
  · intro j
    refine ⟨⟨(j 3).val, (j 3).isLt⟩, ?_⟩
    rw [val_main_v73_apply, val_main_v71_apply, val_main_v69_apply, val_main_v60_apply, h59, val_main_v72_apply,
      val_main_v70_apply, val_main_v68_apply, val_main_v67_apply, val_main_v66_apply, val_main_v64_apply, val_main_v62_apply,
      val_main_v61_apply, val_main_v65_apply, val_main_v63_apply, val_main_v61_apply]
    simp only [Ideal.addf_def, zero_add]
    exact sqf_diag (BitVec.ofNat 32 (j 3).val)

/-! ## After the passes -/

variable (x0 : (⟨S2x4x64x96x96, .f32⟩ : BufTy).Contents (Elt Ideal))

/-- The distance is `√0 = 0`, so every product of a class probability with it is `0`. -/
theorem weighted_zero (h74 : val_main_v74 (F := Ideal) x1 = fun _ => (0 : EReal)) :
    val_main_v78 (F := Ideal) x0 x1 = fun _ => (0 : EReal) := by
  funext i
  rw [val_main_v78_apply, val_main_v77_apply, val_main_v76_apply, val_main_v75_apply, h74]
  simp only [Ideal.hostUnary_sqrt_def, sqrt_zero, Ideal.mulf_def, mul_zero]

/-- The per-class sums over batch and space of the zero field, started from `0`, are `0`. -/
theorem perclass_zero (h78 : val_main_v78 (F := Ideal) x0 x1 = fun _ => (0 : EReal)) :
    val_main_v79 (F := Ideal) x0 x1 = fun _ => (0 : EReal) := by
  unfold val_main_v79
  rw [h78]
  funext j
  simp only [Host.reduceAdd, Ideal.hostReduceAdd_def, hostReduceAdd_zero, val_main_cst_10_apply, Ideal.ofBits_def, Ideal.ofBits_zero_f32]

/-- Dividing by the voxel count, summing over the four classes and dividing by `4` all keep `0`. -/
theorem result_zero (h79 : val_main_v79 (F := Ideal) x0 x1 = fun _ => (0 : EReal)) :
    val_main_v83 (F := Ideal) x0 x1 = fun _ => (0 : EReal) := by
  have h81 : val_main_v81 (F := Ideal) x0 x1 = fun _ => (0 : EReal) := by
    funext i
    rw [val_main_v81_apply, h79, val_main_v80_apply, val_main_cst_11_apply]
    simp only [Ideal.hostDivf_def, Ideal.ofBits_def, ofBits_voxels]
    exact div_zero_left (EReal.coe_ne_zero.mpr (by norm_num))
  funext i
  rw [val_main_v83_apply, val_main_v82_apply, h81, val_main_cst_12_apply, val_main_cst_13_apply]
  simp only [Ideal.hostDivf_def, Ideal.ofBits_def, Ideal.ofBits_zero_f32, ofBits_four, Finset.sum_const_zero, add_zero]
  exact div_zero_left (EReal.coe_ne_zero.mpr (by norm_num))

/-- With every label valid the reference's result is `0`, whatever the logits. -/
theorem ref_zero (hx : ∀ i, InRange (x1 i)) : val_main_v83 (F := Ideal) x0 x1 = fun _ => (0 : EReal) :=
  result_zero x1 x0 (perclass_zero x1 x0 (weighted_zero x1 x0 (pass4_zero x1 (pass3_zero x1 (pass2_zero x1 (pass1_zero x1 (init_zero x1 hx)))))))

end Cert.ReferenceIdeal.RefZero

end
-- ==== Proof.PreValid.lean ====
/-
  Reading the precondition: it says, among other things, that every label is valid.

  The precondition is the conjunction of "every logit is finite" and "every label `t` has `0 ≤ t` and `t < 4`", each an
  `and` over all entries. If the whole is true then the second conjunct is, hence the `and` over the labels is true at every
  label, hence both compares are true there.
-/
import proofs.«418121_j4861902979372_3_alg».proof.Pre_finite_inputs
import proofs.«418121_j4861902979372_3_alg».proof.Proof.LibZero
import Idealize.ShloMosaic.Lib.ReduceAll
import Idealize.ShloMosaic.Lib.Affine

noncomputable section

namespace Cert.PreValid

open Idealize.ShloMosaic Cert.LibZero Cert.Pre_finite_inputs

variable [Cert.Pre_finite_inputs.Facts]

instance : Subsingleton S_.Idx := ⟨fun _ _ => funext fun d => d.elim0⟩

/-- If the precondition holds of the two argument arrays then every entry of the label array is a valid label. -/
theorem valid_of_pre {F : FTy → Type} [FloatOps F] (a0 : FVec F S2x4x64x96x96 .f32) (a1 : IVec S2x64x96x96 32)
    (h : Cert.Pre_finite_inputs.fn (F := F) a0 a1 = fun _ => 1#1) : ∀ i, InRange (a1 i) := by
  intro i
  have h0 := congrFun h ValueIdx.ix0
  dsimp only [Cert.Pre_finite_inputs.fn] at h0
  obtain ⟨-, h9⟩ := IntOp.andi_eq_one.1 h0
  have h8 := Host.reduce_andi_all _ _ _ _ _ h9 i
  obtain ⟨h5, h7⟩ := IntOp.andi_eq_one.1 h8
  exact ⟨h5, h7⟩

end Cert.PreValid

end
-- ==== Proof.lean ====
/-
  The kernel against its reference, over the extended reals, under the stated domain: every logit finite and every label
  in `[0, 4)`.

  On that domain both programs return `0`, for every finite (indeed every) logit array:
  * the reference: the one-hot rows of valid labels sum to `1`, the background indicator `1 − 1` is `0`, the initial
    squared-distance field is `0` everywhere, each of the four min-plus passes `d[i] = min_j (f[j] + (i − j)²)` keeps the
    zero field (all candidates `≥ 0`, the candidate `j = i` is `0`), the distance is `√0 = 0`, so `Σ σ(logit) · 0 = 0` and
    the two means of `0` are `0`;
  * the kernel: on each block of valid labels `dist = √(bg ≠ 0 ? 1e10 : 0) = 0`, the block's partial sum `Σ logit · 0` is
    `0`, every accumulator stays the zero field, the result array is the zero field, and `(Σ 0) / 4718592 = 0`.
  The three frames are the generated run of each program; the idealization rewrote nothing, so `preserves` is `True`.
-/
import proofs.«418121_j4861902979372_3_alg».proof.Defs
import proofs.«418121_j4861902979372_3_alg».proof.Proof.Gen.Kernel
import proofs.«418121_j4861902979372_3_alg».proof.Proof.Gen.Kernel.Skeleton
import proofs.«418121_j4861902979372_3_alg».proof.Proof.Gen.Kernel.Launch
import proofs.«418121_j4861902979372_3_alg».proof.Proof.Gen.Kernel.Points
import proofs.«418121_j4861902979372_3_alg».proof.Proof.Gen.Kernel.Frame
import proofs.«418121_j4861902979372_3_alg».proof.Proof.Gen.KernelIdeal
import proofs.«418121_j4861902979372_3_alg».proof.Proof.Gen.KernelIdeal.Skeleton
import proofs.«418121_j4861902979372_3_alg».proof.Proof.Gen.KernelIdeal.Launch
import proofs.«418121_j4861902979372_3_alg».proof.Proof.Gen.KernelIdeal.Points
import proofs.«418121_j4861902979372_3_alg».proof.Proof.Gen.KernelIdeal.Frame
import proofs.«418121_j4861902979372_3_alg».proof.Proof.Gen.ReferenceIdeal
import proofs.«418121_j4861902979372_3_alg».proof.Proof.Gen.Pre_finite_inputs
import proofs.«418121_j4861902979372_3_alg».proof.Proof.KRun
import proofs.«418121_j4861902979372_3_alg».proof.Proof.RefZero2
import proofs.«418121_j4861902979372_3_alg».proof.Proof.PreValid
import Idealize.ShloMosaic.Adequacy
import Idealize.ShloMosaic.Init

noncomputable section

namespace Cert.Proof

open Idealize.ShloMosaic Idealize.SL.Sem Cert.LibZero

section Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition every label is valid, on both sides (the memories agree on the label array); then both runs
    end with the result `0`. -/
theorem algebraic : Cert.algebraic_KernelIdeal_ReferenceIdeal := by
  intro m ρ m' ρ' hpre hagree
  have hv : Cert.KernelIdeal.OutZero.Valid m := fun c i => Cert.PreValid.valid_of_pre _ _ (hpre c) i
  refine ⟨Cert.KernelIdeal.OutZero.zres, Cert.KernelIdeal.OutZero.run_zero m ρ hv, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq]
  exact Cert.ReferenceIdeal.RefZero.ref_zero _ _ (fun i => by rw [(hagree c).2]; exact hv c i)

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
